-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x100x6x32x32 : Shape := ⟨5, ![128, 100, 6, 32, 32]⟩
abbrev S_ : Shape := ⟨0, ![]⟩

class Facts : Prop where
  bcast_S_S128x100x6x32x32 : S_.BroadcastsInDim S128x100x6x32x32 (![] : Fin 0 → Fin S128x100x6x32x32.rank)
  reducesTo_S128x100x6x32x32_S_d0_1_2_3_4 : S128x100x6x32x32.ReducesTo [0, 1, 2, 3, 4] S_
  h_S_ : 0 < S_.numel

variable [Facts]

def fn {F : FTy → Type} [FloatOps F] (main_arg0 : FVec F S128x100x6x32x32 .f32) (main_arg1 : FVec F S128x100x6x32x32 .f32) : IVec S_ 1 :=
  let main_v0 : FVec F S128x100x6x32x32 .f32 := Host.absf main_arg0
  let main_cst : FVec F S_ .f32 := constant S_ .f32 0x7F800000#32
  let main_v1 : FVec F S128x100x6x32x32 .f32 := broadcastInDim S128x100x6x32x32 ![] bcast_S_S128x100x6x32x32 main_cst
  let main_v2 : IVec S128x100x6x32x32 1 := cmpf .olt main_v0 main_v1
  let main_c : IVec S_ 1 := constantI S_ 1 1#1
  let main_v3 : IVec S_ 1 := (fun x v => Host.reduce IntOp.andi x v reducesTo_S128x100x6x32x32_S_d0_1_2_3_4 h_S_) main_v2 main_c
  let main_v4 : FVec F S128x100x6x32x32 .f32 := Host.absf main_arg1
  let main_cst_0 : FVec F S_ .f32 := constant S_ .f32 0x7F800000#32
  let main_v5 : FVec F S128x100x6x32x32 .f32 := broadcastInDim S128x100x6x32x32 ![] bcast_S_S128x100x6x32x32 main_cst_0
  let main_v6 : IVec S128x100x6x32x32 1 := cmpf .olt main_v4 main_v5
  let main_c_1 : IVec S_ 1 := constantI S_ 1 1#1
  let main_v7 : IVec S_ 1 := (fun x v => Host.reduce IntOp.andi x v reducesTo_S128x100x6x32x32_S_d0_1_2_3_4 h_S_) main_v6 main_c_1
  let main_v8 : IVec S_ 1 := andi main_v3 main_v7
  main_v8
-- ==== Kernel.lean ====
abbrev S128x100x6x32x32 : Shape := ⟨5, ![128, 100, 6, 32, 32]⟩
abbrev S1x1 : Shape := ⟨2, ![1, 1]⟩
abbrev S16x20x3x32x32 : Shape := ⟨5, ![16, 20, 3, 32, 32]⟩
abbrev S960x1024 : Shape := ⟨2, ![960, 1024]⟩
abbrev S960 : Shape := ⟨1, ![960]⟩
abbrev S960x1 : Shape := ⟨2, ![960, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S128x100x6x32x32, .f32⟩
  | .hbm, ⟨1, _⟩ => ⟨S128x100x6x32x32, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S16x20x3x32x32, .f32⟩
  | .local _ .vmem, ⟨1, _⟩ => ⟨S16x20x3x32x32, .f32⟩
  | .local _ .vmem, ⟨2, _⟩ => ⟨S16x20x3x32x32, .f32⟩
  | .local _ .vmem, ⟨3, _⟩ => ⟨S16x20x3x32x32, .f32⟩
  | .local _ .vmem, ⟨4, _⟩ => ⟨S1x1, .f32⟩
  | .local _ .vmem, ⟨5, _⟩ => ⟨S1x1, .f32⟩
  | _, _ => ⟨S128x100x6x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg0 : BitVec 32 := BitVec.ofNat 32 (i 0).val
  let c7_i32 : BitVec 32 := 7#32
  let v19 : BitVec 1 := Scalar.cmpi .eq arg0 c7_i32
  let arg1 : BitVec 32 := BitVec.ofNat 32 (i 1).val
  let c4_i32 : BitVec 32 := 4#32
  let v20 : BitVec 1 := Scalar.cmpi .eq arg1 c4_i32
  let v21 : BitVec 1 := Scalar.andi v19 v20
  let v22 : BitVec 32 := Scalar.extui v21
  let c0_i32_16 : BitVec 32 := 0#32
  let v23 : BitVec 1 := Scalar.cmpi .ne v22 c0_i32_16
  v23

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x20x3x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x20x3x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x20x3x32x32_S16x20x3x32x32_0_0_0_0_0 : ∀ a, (![0, 0, 0, 0, 0] : Fin 5 → Nat) a + S16x20x3x32x32.size a ≤ S16x20x3x32x32.size a
  h_S16x20x3x32x32 : 0 < S16x20x3x32x32.numel
  shapeCasts_S16x20x3x32x32_S960x1024 : S16x20x3x32x32.ShapeCasts S960x1024
  reduces_S960x1024_S960 : S960x1024.Reduces [1] S960
  shapeCasts_S960_S960x1 : S960.ShapeCasts S960x1
  reduces_S960x1_S1 : S960x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x20x3x32x32.size a ≤ S128x100x6x32x32.size a
  hwx0_0 : ∀ i : grid0.Coords, EltTy.bits .f32 = 32 ∨ (Rect.block (s := S128x100x6x32x32) S16x20x3x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x20x3x32x32.size a ≤ S128x100x6x32x32.size a
  hwx0_1 : ∀ i : grid0.Coords, EltTy.bits .f32 = 32 ∨ (Rect.block (s := S128x100x6x32x32) S16x20x3x32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S16x20x3x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x20x3x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x100x6x32x32 : Shape := ⟨5, ![128, 100, 6, 32, 32]⟩
abbrev S128x100x3x32x32 : Shape := ⟨5, ![128, 100, 3, 32, 32]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S128x100x6x32x32, .f32⟩
  | .hbm, ⟨1, _⟩ => ⟨S128x100x6x32x32, .f32⟩
  | .hbm, ⟨2, _⟩ => ⟨S128x100x3x32x32, .f32⟩
  | .hbm, ⟨3, _⟩ => ⟨S128x100x3x32x32, .f32⟩
  | .hbm, ⟨4, _⟩ => ⟨S128x100x3x32x32, .f32⟩
  | .hbm, ⟨5, _⟩ => ⟨S128x100x3x32x32, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | _, _ => ⟨S128x100x6x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  slices_S128x100x6x32x32_S128x100x3x32x32_0_0_0_0_0 : S128x100x6x32x32.Slices ![0, 0, 0, 0, 0] S128x100x3x32x32
  reducesTo_S128x100x3x32x32_S_d0_1_2_3_4 : S128x100x3x32x32.ReducesTo [0, 1, 2, 3, 4] S_
  h_S_ : 0 < S_.numel

variable [Facts₀]

class Facts : Prop extends Facts₀ where

variable [Facts]
-- ==== Proof.Regroup.lean ====
/-
  The index bookkeeping behind "a sum over the whole array is the sum of the block sums".

  The kernel walks a grid of 8 × 5 points; point `t` (row-major: `t = 5·p + q`) sees the block
  `[16p, 16p+16) × [20q, 20q+20) × [0,3) × [0,32) × [0,32)` of a [128,100,6,32,32] array. Those forty
  blocks partition the channel-`0:3` part [128,100,3,32,32] of the array: the map
  `(t, j) ↦ (16·(t/5) + j₀, 20·(t%5) + j₁, j₂, j₃, j₄)` is a bijection from (point, index in the block) to the
  indices of that part, so a sum over the part regroups into forty block sums — in any commutative monoid,
  hence on the extended reals with no finiteness needed.

  Two further regroupings used for a block's own sum: a reshape permutes nothing (it is a bijection of the
  indices), and summing the fibres of a reduction over all reduced indices is the total sum.
-/
import Idealize.ShloMosaic.PureOps.Ideal
import Idealize.ShloMosaic.PureOps.Ideal.Laws
import Idealize.ShloMosaic.Lib.ValueIdx

noncomputable section

namespace Cert.AbsDiffMean

open Idealize.ShloMosaic Idealize.ShloMosaic.ValueIdx

/-- The whole input array's shape, the part of it both programs read (channels `0:3`), and one block. -/
abbrev Full : Shape := ⟨5, ![128, 100, 6, 32, 32]⟩
abbrev Part : Shape := ⟨5, ![128, 100, 3, 32, 32]⟩
abbrev Blk : Shape := ⟨5, ![16, 20, 3, 32, 32]⟩

/-- Index `j` of grid point `t`'s block, as an index of the channel-`0:3` part. -/
def blkToPart (t : Fin 40) (j : Blk.Idx) : Part.Idx :=
  ix5 (⟨16 * (t.val / 5) + (j 0).val, by have := t.isLt; have : (j 0).val < 16 := (j 0).isLt; omega⟩ : Fin 128)
    (⟨20 * (t.val % 5) + (j 1).val, by have : (j 1).val < 20 := (j 1).isLt; omega⟩ : Fin 100)
    (⟨(j 2).val, (j 2).isLt⟩ : Fin 3) (⟨(j 3).val, (j 3).isLt⟩ : Fin 32) (⟨(j 4).val, (j 4).isLt⟩ : Fin 32)

/-- An index of the part, as an index of the whole array (the slice at offset zero). -/
def partToFull (i : Part.Idx) : Full.Idx :=
  ix5 (⟨(i 0).val, (i 0).isLt⟩ : Fin 128) (⟨(i 1).val, (i 1).isLt⟩ : Fin 100)
    (⟨(i 2).val, by have : (i 2).val < 3 := (i 2).isLt; omega⟩ : Fin 6)
    (⟨(i 3).val, (i 3).isLt⟩ : Fin 32) (⟨(i 4).val, (i 4).isLt⟩ : Fin 32)

theorem blkToPart_val0 (t : Fin 40) (j : Blk.Idx) : ((blkToPart t j) 0).val = 16 * (t.val / 5) + (j 0).val := rfl
theorem blkToPart_val1 (t : Fin 40) (j : Blk.Idx) : ((blkToPart t j) 1).val = 20 * (t.val % 5) + (j 1).val := rfl
theorem blkToPart_val2 (t : Fin 40) (j : Blk.Idx) : ((blkToPart t j) 2).val = (j 2).val := rfl
theorem blkToPart_val3 (t : Fin 40) (j : Blk.Idx) : ((blkToPart t j) 3).val = (j 3).val := rfl
theorem blkToPart_val4 (t : Fin 40) (j : Blk.Idx) : ((blkToPart t j) 4).val = (j 4).val := rfl

/-- The forty blocks partition the part: (point, index in the block) ↦ index of the part is a bijection. -/
theorem blkToPart_bijective : Function.Bijective (fun p : Fin 40 × Blk.Idx => blkToPart p.1 p.2) := by
  constructor
  · rintro ⟨t, j⟩ ⟨t', j'⟩ h
    have e0 := congrArg (fun i : Part.Idx => (i 0).val) h
    have e1 := congrArg (fun i : Part.Idx => (i 1).val) h
    have e2 := congrArg (fun i : Part.Idx => (i 2).val) h
    have e3 := congrArg (fun i : Part.Idx => (i 3).val) h
    have e4 := congrArg (fun i : Part.Idx => (i 4).val) h
    simp only [blkToPart_val0, blkToPart_val1, blkToPart_val2, blkToPart_val3, blkToPart_val4] at e0 e1 e2 e3 e4
    have b0 : (j 0).val < 16 := (j 0).isLt
    have b0' : (j' 0).val < 16 := (j' 0).isLt
    have b1 : (j 1).val < 20 := (j 1).isLt
    have b1' : (j' 1).val < 20 := (j' 1).isLt
    have ht := t.isLt
    have ht' := t'.isLt
    have htt : t = t' := Fin.ext (by omega)
    subst htt
    have hjj : j = j' := funext fun a => Fin.ext (by
      match a with
      | ⟨0, _⟩ => show (j 0).val = (j' 0).val; omega
      | ⟨1, _⟩ => show (j 1).val = (j' 1).val; omega
      | ⟨2, _⟩ => exact e2
      | ⟨3, _⟩ => exact e3
      | ⟨4, _⟩ => exact e4)
    rw [hjj]
  · intro i
    have h0 : (i 0).val < 128 := (i 0).isLt
    have h1 : (i 1).val < 100 := (i 1).isLt
    refine ⟨(⟨5 * ((i 0).val / 16) + (i 1).val / 20, by omega⟩,
      ix5 (⟨(i 0).val % 16, by omega⟩ : Fin 16) (⟨(i 1).val % 20, by omega⟩ : Fin 20)
        (⟨(i 2).val, (i 2).isLt⟩ : Fin 3) (⟨(i 3).val, (i 3).isLt⟩ : Fin 32) (⟨(i 4).val, (i 4).isLt⟩ : Fin 32)), ?_⟩
    funext a
    apply Fin.ext
    match a with
    | ⟨0, _⟩ => show 16 * ((5 * ((i 0).val / 16) + (i 1).val / 20) / 5) + (i 0).val % 16 = (i 0).val; omega
    | ⟨1, _⟩ => show 20 * ((5 * ((i 0).val / 16) + (i 1).val / 20) % 5) + (i 1).val % 20 = (i 1).val; omega
    | ⟨2, _⟩ => rfl
    | ⟨3, _⟩ => rfl
    | ⟨4, _⟩ => rfl

/-- So a sum over the part is the sum, over the forty points, of the block sums. -/
theorem sum_blocks {M : Type} [AddCommMonoid M] (g : Part.Idx → M) :
    ∑ t : Fin 40, ∑ j : Blk.Idx, g (blkToPart t j) = ∑ i : Part.Idx, g i := by
  rw [← Fintype.sum_prod_type']
  exact blkToPart_bijective.sum_comp g

/-- A reshape lists the same entries: its sum is the operand's. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-- Summing an add-reduction over all its reduced indices is the total sum of the source: the fibres of
    "drop the reduced axes" partition the source's indices. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ h.drop x

/-- The same for a kernel's add-reduction as printed: at the exact instance it is that reduction. -/
theorem sum_multiReduction_add {φ : FTy} {s t : Shape} {axes : List (Fin s.rank)} (src : FVec Ideal s φ) (acc : BitVec φ.bits)
    (h : s.Reduces axes t) (hφ : FKind.Formats φ) (hacc : acc = FKind.add.neutral φ hφ) :
    ∑ j : t.Idx, multiReduction .add axes t src acc h hφ hacc j = ∑ i : s.Idx, src i :=
  sum_reduceAdd h src

/-- The absolute difference of two extended reals, as both programs compute it at the exact instance:
    `|a − b| = max (a − b) (−(a − b))`. -/
def absDiff (a b : EReal) : EReal := max (a - b) (-(a - b))

/-- The common value of the two programs: the sum of `|conv − out|` over the channel-`0:3` part. -/
def total (out conv : Full.Idx → EReal) : EReal :=
  ∑ i : Part.Idx, absDiff (conv (partToFull i)) (out (partToFull i))

/-- Both programs end by dividing that sum by the element count 128·100·3·32·32 = 39321600 (an exact f32), the
    same literal on both sides, so it is never evaluated. -/
def mean (out conv : Full.Idx → EReal) : (⟨0, ![]⟩ : Shape).Idx → EReal :=
  fun _ => Ideal.div (total out conv) (Ideal.ofBits .f32 0x4C160000#32)

/-- One block's share of the sum. -/
def blockSum (xout xconv : Blk.Idx → EReal) : EReal := ∑ j : Blk.Idx, absDiff (xconv j) (xout j)

end Cert.AbsDiffMean

end
-- ==== Proof.RefValue.lean ====
/-
  The reference's value. Its run ends, at the exact instance, with `(0 + ∑ᵢ |conv(i) − out(i)|) / 39321600`, the
  sum over every index `i` of the channel-`0:3` slice of the two inputs (a slice at offset zero reads the input at the same
  coordinates): read off the generated stages one operation at a time, that is `mean out conv`.
-/
import proofs.«162782_j33758442946605_1_alg».proof.Proof.Gen.ReferenceIdeal.Read
import proofs.«162782_j33758442946605_1_alg».proof.Proof.Regroup

noncomputable section

namespace Cert.ReferenceIdeal.RefValue

open Cert.ReferenceIdeal Cert.ReferenceIdeal.Read Cert.AbsDiffMean Idealize.ShloMosaic

/-- The slice at offset zero reads the input at the same coordinates. -/
theorem idx_v0_eq (i : S128x100x3x32x32.Idx) : idx_main_v0 i = partToFull i :=
  funext fun a => match a with
    | ⟨0, _⟩ => rfl
    | ⟨1, _⟩ => rfl
    | ⟨2, _⟩ => rfl
    | ⟨3, _⟩ => rfl
    | ⟨4, _⟩ => rfl

theorem idx_v1_eq (i : S128x100x3x32x32.Idx) : idx_main_v1 i = partToFull i :=
  funext fun a => match a with
    | ⟨0, _⟩ => rfl
    | ⟨1, _⟩ => rfl
    | ⟨2, _⟩ => rfl
    | ⟨3, _⟩ => rfl
    | ⟨4, _⟩ => rfl

/-- The reference's result is the mean absolute difference over the slice: the initial `0` of the sum drops. -/
theorem ref_eq (x0 x1 : FVec Ideal S128x100x6x32x32 .f32) :
    val_main_v5 (F := Ideal) x0 x1 = mean x0 x1 := by
  funext i
  rw [val_main_v5_apply, val_main_v4_apply]
  simp only [val_main_v3_apply, val_main_v2_apply, val_main_v0_apply, val_main_v1_apply, idx_v0_eq, idx_v1_eq,
    val_main_cst_apply, val_main_cst_0_apply]
  show Ideal.div (Ideal.ofBits .f32 0x00000000#32 + total x0 x1) (Ideal.ofBits .f32 0x4C160000#32) = _
  rw [Ideal.ofBits_zero_f32, zero_add]
  rfl

end Cert.ReferenceIdeal.RefValue

end
-- ==== Proof.KernelPieces.lean ====
/-
  What the kernel body leaves, case by case, read back as values (at any float instance).

  The body keeps one running scalar in a scratch cell. Every store and load goes through the whole cell (or the whole
  block), so what the last covering store wrote is what the cell holds, and a load after a store reads that store's value:
    * at the first grid point the cell is reset to the zero payload and then updated: it ends at `update conv out reset`;
    * at a middle point it is updated from what the point before left: `update conv out prev`;
    * at the last point likewise, and the updated scalar, read back, is also what is stored to the output block.
  Here `update` is the body's one arithmetic payload `k0_pay2` (first the block of `conv`, then the block of `out`,
  then the scalar read) and `reset` is `k0_pay1`.
-/
import proofs.«162782_j33758442946605_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz5 : (![0, 0, 0, 0, 0] : Fin 5 → Nat) = fun _ => 0 := funext fun a => by fin_cases a <;> rfl

/-- First point: the scratch cell ends at the update of the freshly reset scalar. -/
theorem sout_A (c : Dev nD) (i : grid0.Coords) (a2 : Memref sig .tc .vmem S16x20x3x32x32 .f32) (h2 : a2.IsWhole)
    (a3 : Memref sig .tc .vmem S16x20x3x32x32 .f32) (h3 : a3.IsWhole) (a4 : Memref sig .tc .vmem S1x1 .f32) (h4 : a4.IsWhole)
    (a5 : Memref sig .tc .vmem S1x1 .f32) (h5 : a5.IsWhole) (hc0 : cond0_0 i) (hc1 : ¬cond0_1 i)
    (x0 x1 : Vec F S16x20x3x32x32 .f32) :
    sout0_A_0 c i a2 h2 a3 h3 a4 h4 a5 h5 hc0 hc1 x0 x1 = k0_pay2 x1 x0 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, View.ld_unit_zero (S := S16x20x3x32x32) hz5]

/-- A middle point: the scratch cell ends at the update of what it held. -/
theorem sout_B (c : Dev nD) (i : grid0.Coords) (a2 : Memref sig .tc .vmem S16x20x3x32x32 .f32) (h2 : a2.IsWhole)
    (a3 : Memref sig .tc .vmem S16x20x3x32x32 .f32) (h3 : a3.IsWhole) (a4 : Memref sig .tc .vmem S1x1 .f32) (h4 : a4.IsWhole)
    (a5 : Memref sig .tc .vmem S1x1 .f32) (h5 : a5.IsWhole) (hc0 : ¬cond0_0 i) (hc1 : ¬cond0_1 i)
    (x0 x1 : Vec F S16x20x3x32x32 .f32) (xs : Vec F S1x1 .f32) :
    sout0_B_0 c i a2 h2 a3 h3 a4 h4 a5 h5 hc0 hc1 x0 x1 xs = k0_pay2 x1 x0 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz2]
  simp only [View.readAt_eq_ld, h2.read_unread, h3.read_unread, h5.read_unread,
    View.ld_unit_zero (S := S16x20x3x32x32) hz5, View.ld_unit_zero (S := S1x1) hz2]

/-- The last point: the scratch cell ends at the update of what it held, -/
theorem sout_C (c : Dev nD) (i : grid0.Coords) (a2 : Memref sig .tc .vmem S16x20x3x32x32 .f32) (h2 : a2.IsWhole)
    (a3 : Memref sig .tc .vmem S16x20x3x32x32 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 x1 : Vec F S16x20x3x32x32 .f32) (xs : Vec F S1x1 .f32) :
    sout0_C_0 c i a2 h2 a3 h3 a4 h4 a5 h5 hc0 hc1 x0 x1 xs = k0_pay2 x1 x0 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz2]
  simp only [View.readAt_eq_ld, h2.read_unread, h3.read_unread, h5.read_unread,
    View.ld_unit_zero (S := S16x20x3x32x32) hz5, View.ld_unit_zero (S := S1x1) hz2]

/-- and the output block receives that same updated scalar (the body reads the cell back and stores it). -/
theorem out_C (c : Dev nD) (i : grid0.Coords) (a2 : Memref sig .tc .vmem S16x20x3x32x32 .f32) (h2 : a2.IsWhole)
    (a3 : Memref sig .tc .vmem S16x20x3x32x32 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 x1 : Vec F S16x20x3x32x32 .f32) (xs : Vec F S1x1 .f32) :
    out0_C_2 c i a2 h2 a3 h3 a4 h4 a5 h5 hc0 hc1 x0 x1 xs = k0_pay2 x1 x0 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz2, View.readCov_unit_zero (S := S1x1) _ hz2]
  simp only [View.readAt_eq_ld, h2.read_unread, h3.read_unread, h5.read_unread,
    View.ld_unit_zero (S := S16x20x3x32x32) hz5, View.ld_unit_zero (S := S1x1) hz2]

end Cert.KernelIdeal.Pieces

end
-- ==== Proof.KernelBlock.lean ====
/-
  The kernel body's arithmetic at the exact instance. At one grid point the body forms `|conv − out|` on the point's
  two blocks, flattens the block to 960 × 1024, sums each row, then sums the 960 row sums, and adds that to the
  running scalar: the new scalar is `acc + ∑ⱼ |conv(j) − out(j)|` over the block's indices `j` — the two
  reshapes re-list the same entries and the two reductions are sums of sums, so nothing but a regrouping
  of one finite sum on the extended reals. The reset at the first point stores `0`.
-/
import proofs.«162782_j33758442946605_1_alg».proof.Proof.Gen.KernelIdeal.Skeleton
import proofs.«162782_j33758442946605_1_alg».proof.Proof.Regroup
import Idealize.ShloMosaic.Lib.Pipeline.Value
import Idealize.ShloMosaic.PureOps.Ideal.Laws

noncomputable section

namespace Cert.KernelIdeal.BlockValue

open Cert.KernelIdeal Cert.KernelIdeal.Gen Cert.AbsDiffMean Idealize.ShloMosaic

/-- The reset's payload is the zero scalar. -/
theorem reset_apply (i : S1x1.Idx) : k0_pay1 (F := Ideal) i = 0 := by
  unfold k0_pay1
  rw [shapeCast_self]
  exact Ideal.ofBits_zero_f32

/-- The update's payload: the scalar it read plus the block's sum of absolute differences
    (`x1` the block of `conv`, `x0` the block of `out`). -/
theorem update_apply (x1 x0 : FVec Ideal S16x20x3x32x32 .f32) (acc : FVec Ideal S1x1 .f32) (i : S1x1.Idx) :
    k0_pay2 x1 x0 acc i = acc i + blockSum x0 x1 := by
  unfold k0_pay2
  rw [shapeCast_self]
  refine congrArg (acc i + ·) ?_
  refine (Ideal.multiReduction_add_total _ _ _ (fun b => match b with | ⟨0, _⟩ => rfl) _ _ _).trans ?_
  refine (sum_shapeCast _ _).trans ?_
  refine (sum_multiReduction_add _ _ _ _ _).trans ?_
  refine (sum_shapeCast _ _).trans ?_
  rfl

end Cert.KernelIdeal.BlockValue

end
-- ==== Proof.KernelValue.lean ====
/-
  The kernel's value at the exact instance.

  The grid has forty points, walked in order. The scratch scalar after point `n` is the sum of the block sums of points
  `0 … n` (by induction on the point: the first point resets to `0` and adds its block's sum, every later point adds
  its own to what the point before left). The last point also stores that scalar to the one-element output block,
  which is the only write-back, so the output array ends holding the sum of all forty block sums. A block of the input
  at point `t` is the input at rows `16·(t/5) + j₀`, `20·(t%5) + j₁` and channels `j₂ < 3`, so the forty block sums
  regroup to the sum over the channel-`0:3` part of the arrays (Regroup.lean). The host lines after the call reshape the
  scalar and divide it by the element count: the program's result is `mean out conv`.
-/
import proofs.«162782_j33758442946605_1_alg».proof.Proof.Gen.KernelIdeal.Frame
import proofs.«162782_j33758442946605_1_alg».proof.Proof.KernelPieces
import proofs.«162782_j33758442946605_1_alg».proof.Proof.KernelBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.AbsDiffMean

variable (m : (ℓ : Loc nD τ sig) → Buf (Elt Ideal) ℓ) (ρ : Dev nD → PrngReg)

/-- The two input arrays as the call finds them, and their blocks at a grid point, at their literal shapes. -/
abbrev outArr (c : Dev nD) : Vec Ideal S128x100x6x32x32 .f32 := V m c main_arg0
abbrev convArr (c : Dev nD) : Vec Ideal S128x100x6x32x32 .f32 := V m c main_arg1
abbrev outBlk (c : Dev nD) (t : Fin cfg0.N) : Vec Ideal S16x20x3x32x32 .f32 := iblk m c 0 t
abbrev convBlk (c : Dev nD) (t : Fin cfg0.N) : Vec Ideal S16x20x3x32x32 .f32 := iblk m c 1 t

/-- Point `t` is grid position `(t / 5, t % 5)`; both inputs' blocks sit at block index `(t/5, t%5, 0, 0, 0)`. -/
theorem blockIndex0 : ∀ t : Fin cfg0.N, win0_0.index t 0 = t.val / 5 ∧ win0_0.index t 1 = t.val % 5
    ∧ win0_0.index t 2 = 0 ∧ win0_0.index t 3 = 0 ∧ win0_0.index t 4 = 0 :=
  (by decide +kernel : ∀ t : Fin grid0.N, win0_0.index t 0 = t.val / 5 ∧ win0_0.index t 1 = t.val % 5
    ∧ win0_0.index t 2 = 0 ∧ win0_0.index t 3 = 0 ∧ win0_0.index t 4 = 0)
theorem blockIndex1 : ∀ t : Fin cfg0.N, win0_1.index t 0 = t.val / 5 ∧ win0_1.index t 1 = t.val % 5
    ∧ win0_1.index t 2 = 0 ∧ win0_1.index t 3 = 0 ∧ win0_1.index t 4 = 0 :=
  (by decide +kernel : ∀ t : Fin grid0.N, win0_1.index t 0 = t.val / 5 ∧ win0_1.index t 1 = t.val % 5
    ∧ win0_1.index t 2 = 0 ∧ win0_1.index t 3 = 0 ∧ win0_1.index t 4 = 0)

/-- Entry `j` of point `t`'s block of `out` is `out` at the block's place in the array. -/
theorem outBlk_apply (c : Dev nD) (t : Fin cfg0.N) (j : S16x20x3x32x32.Idx) :
    outBlk m c t j = outArr m c (partToFull (blkToPart (Fin.cast N_0 t) j)) := by
  have hf := blockIndex0 t
  show iblk m c 0 t j = _
  unfold iblk
  rw [View.read_apply]
  show V m c main_arg0 _ = V m c main_arg0 _
  congr 1
  funext a
  apply Fin.ext
  match a with
  | ⟨0, _⟩ => show win0_0.index t 0 * 16 + 1 * (j 0).val = 16 * (t.val / 5) + (j 0).val; rw [hf.1]; omega
  | ⟨1, _⟩ => show win0_0.index t 1 * 20 + 1 * (j 1).val = 20 * (t.val % 5) + (j 1).val; rw [hf.2.1]; omega
  | ⟨2, _⟩ => show win0_0.index t 2 * 3 + 1 * (j 2).val = (j 2).val; rw [hf.2.2.1]; omega
  | ⟨3, _⟩ => show win0_0.index t 3 * 32 + 1 * (j 3).val = (j 3).val; rw [hf.2.2.2.1]; omega
  | ⟨4, _⟩ => show win0_0.index t 4 * 32 + 1 * (j 4).val = (j 4).val; rw [hf.2.2.2.2]; omega

/-- The same for `conv`. -/
theorem convBlk_apply (c : Dev nD) (t : Fin cfg0.N) (j : S16x20x3x32x32.Idx) :
    convBlk m c t j = convArr m c (partToFull (blkToPart (Fin.cast N_0 t) j)) := by
  have hf := blockIndex1 t
  show iblk m c 1 t j = _
  unfold iblk
  rw [View.read_apply]
  show V m c main_arg1 _ = V m c main_arg1 _
  congr 1
  funext a
  apply Fin.ext
  match a with
  | ⟨0, _⟩ => show win0_1.index t 0 * 16 + 1 * (j 0).val = 16 * (t.val / 5) + (j 0).val; rw [hf.1]; omega
  | ⟨1, _⟩ => show win0_1.index t 1 * 20 + 1 * (j 1).val = 20 * (t.val % 5) + (j 1).val; rw [hf.2.1]; omega
  | ⟨2, _⟩ => show win0_1.index t 2 * 3 + 1 * (j 2).val = (j 2).val; rw [hf.2.2.1]; omega
  | ⟨3, _⟩ => show win0_1.index t 3 * 32 + 1 * (j 3).val = (j 3).val; rw [hf.2.2.2.1]; omega
  | ⟨4, _⟩ => show win0_1.index t 4 * 32 + 1 * (j 4).val = (j 4).val; rw [hf.2.2.2.2]; omega

/-- Point `t`'s block sum of absolute differences, -/
def pointSum (c : Dev nD) (t : Fin cfg0.N) : EReal := blockSum (outBlk m c t) (convBlk m c t)

/-- the summand over the part of the arrays both programs read, -/
def term (c : Dev nD) (i : Part.Idx) : EReal := absDiff (convArr m c (partToFull i)) (outArr m c (partToFull i))

/-- and the first as a sum of the second over the block's place in the part. -/
theorem pointSum_eq (c : Dev nD) (t : Fin cfg0.N) :
    pointSum m c t = ∑ j : Blk.Idx, term m c (blkToPart (Fin.cast N_0 t) j) := by
  unfold pointSum blockSum term
  refine Finset.sum_congr rfl fun j _ => ?_
  rw [outBlk_apply m c t j, convBlk_apply m c t j]

/-- The sum of the block sums of points `0 … n`. -/
def partialSum (c : Dev nD) (n : ℕ) (h : n < cfg0.N) : EReal :=
  ∑ k : Fin (n + 1), pointSum m c ⟨k.val, Nat.lt_of_lt_of_le k.isLt h⟩

theorem partialSum_zero (c : Dev nD) (h : 0 < cfg0.N) : partialSum m c 0 h = pointSum m c ⟨0, h⟩ := by
  unfold partialSum
  rw [Fin.sum_univ_one]
  rfl

theorem partialSum_succ (c : Dev nD) (n : ℕ) (h : n + 1 < cfg0.N) :
    partialSum m c (n + 1) h = partialSum m c n (Nat.lt_of_succ_lt h) + pointSum m c ⟨n + 1, h⟩ := by
  unfold partialSum
  rw [Fin.sum_univ_castSucc]
  rfl

/-- THE RUNNING SCALAR: after point `n` the scratch cell holds the sum of the block sums so far. -/
theorem scratch_eq (c : Dev nD) : ∀ (n : ℕ) (h : n < cfg0.N), (outsAt0 m c n h).2 = fun _ => partialSum m c n h
  | 0, h => by
    rw [outsAt0_A m c ⟨0, h⟩ (Nat.zero_mod _) (by show ¬ 0 % 40 = 39; decide)]
    dsimp only
    refine (Pieces.sout_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (outBlk m c ⟨0, h⟩) (convBlk m c ⟨0, h⟩)).trans ?_
    funext i
    refine (BlockValue.update_apply (convBlk m c ⟨0, h⟩) (outBlk m c ⟨0, h⟩) k0_pay1 i).trans ?_
    rw [BlockValue.reset_apply, zero_add, partialSum_zero]
    rfl
  | n + 1, h => by
    have hN : cfg0.N = 40 := N_0
    have h0 : ¬(⟨n + 1, h⟩ : Fin cfg0.N).val % 40 = 0 := by dsimp only; omega
    by_cases h1 : (⟨n + 1, h⟩ : Fin cfg0.N).val % 40 = 39
    · rw [outsAt0_C m c ⟨n + 1, h⟩ h0 h1]
      dsimp only
      refine (Pieces.sout_C (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (outBlk m c ⟨n + 1, h⟩) (convBlk m c ⟨n + 1, h⟩)
        (outsAt0 m c n (Nat.lt_of_succ_lt h)).2).trans ?_
      funext i
      refine (BlockValue.update_apply (convBlk m c ⟨n + 1, h⟩) (outBlk m c ⟨n + 1, h⟩) (outsAt0 m c n (Nat.lt_of_succ_lt h)).2 i).trans ?_
      rw [scratch_eq c n (Nat.lt_of_succ_lt h)]
      exact (partialSum_succ m c n h).symm
    · rw [outsAt0_B m c ⟨n + 1, h⟩ h0 h1]
      dsimp only
      refine (Pieces.sout_B (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (outBlk m c ⟨n + 1, h⟩) (convBlk m c ⟨n + 1, h⟩)
        (outsAt0 m c n (Nat.lt_of_succ_lt h)).2).trans ?_
      funext i
      refine (BlockValue.update_apply (convBlk m c ⟨n + 1, h⟩) (outBlk m c ⟨n + 1, h⟩) (outsAt0 m c n (Nat.lt_of_succ_lt h)).2 i).trans ?_
      rw [scratch_eq c n (Nat.lt_of_succ_lt h)]
      exact (partialSum_succ m c n h).symm

theorem last_lt : 39 < cfg0.N := by rw [show cfg0.N = 40 from N_0]; decide

/-- The last point stores the final scalar to the output block. -/
theorem out_last (c : Dev nD) : (outsAt0 m c 39 last_lt).1 = fun _ => partialSum m c 39 last_lt := by
  rw [outsAt0_C m c ⟨39, last_lt⟩ (by show ¬ 39 % 40 = 0; decide) (by show 39 % 40 = 39; decide)]
  dsimp only
  refine (Pieces.out_C (F := Ideal) c (grid0.coords ⟨39, last_lt⟩) (ms0_0 ⟨39, last_lt⟩) (hs0_0 ⟨39, last_lt⟩) (ms0_1 ⟨39, last_lt⟩) (hs0_1 ⟨39, last_lt⟩)
    (ms0_2 ⟨39, last_lt⟩) (hs0_2 ⟨39, last_lt⟩) scM0_0 (Memref.isWhole_whole _) _ _ (outBlk m c ⟨39, last_lt⟩) (convBlk m c ⟨39, last_lt⟩)
    (outsAt0 m c 38 (Nat.lt_of_succ_lt last_lt)).2).trans ?_
  funext i
  refine (BlockValue.update_apply (convBlk m c ⟨39, last_lt⟩) (outBlk m c ⟨39, last_lt⟩) (outsAt0 m c 38 (Nat.lt_of_succ_lt last_lt)).2 i).trans ?_
  rw [scratch_eq m c 38 (Nat.lt_of_succ_lt last_lt)]
  exact (partialSum_succ m c 38 last_lt).symm

/-- The forty block sums regroup to the sum over the part of the arrays both programs read. -/
theorem partialSum_last (c : Dev nD) : partialSum m c 39 last_lt = total (outArr m c) (convArr m c) := by
  have e : ∀ k : Fin 40, pointSum m c ⟨k.val, Nat.lt_of_lt_of_le k.isLt last_lt⟩ = ∑ j : Blk.Idx, term m c (blkToPart k j) :=
    fun k => pointSum_eq m c ⟨k.val, Nat.lt_of_lt_of_le k.isLt last_lt⟩
  show ∑ k : Fin 40, pointSum m c ⟨k.val, Nat.lt_of_lt_of_le k.isLt last_lt⟩ = _
  rw [Finset.sum_congr rfl fun k _ => e k]
  exact sum_blocks (term m c)

/-- The output array's one element after the call. -/
abbrev accArr (c : Dev nD) : Buf (Elt Ideal) ((c : Thread nD τ).loc main_v0) := fun _ => partialSum m c 39 last_lt

/-- The one write-back, at the last point, writes it. -/
theorem flushed_eq (c : Dev nD) (t : Fin cfg0.N) (hf : (cfg0.win 2).flush t = true) :
    (dats m 0 c).flushed 2 t = ((cfg0.win 2).blk t).view.read (Elt Ideal) (accArr m c) := by
  have hN : cfg0.N = 40 := N_0
  have h3 : t.val = 39 := by have := (flush0_2 t).mp hf; have := t.isLt; omega
  obtain rfl : t = ⟨39, last_lt⟩ := Fin.ext h3
  show (cfg0.win 2).cut (grid0.coords ⟨39, last_lt⟩) ((dats m 0 c).after 2 ⟨39, last_lt⟩) = _
  rw [after0_2, out_last]
  funext y
  rw [View.read_apply]
  rfl

/-- So the output array ends holding the final scalar: the last point's block is the whole one-element array. -/
theorem final_acc (c : Dev nD) : (dats m 0 c).arrAt 2 cfg0.N = accArr m c :=
  (dats m 0 c).arrAt_eq_of_cover 2 (accArr m c) (flushed_eq m c) fun i =>
    ⟨⟨39, last_lt⟩, (flush0_2 _).mpr (by show 39 % 40 = 39; decide), by
      show i ∈ ((View.whole main_v0).slice (win0_2.rect ⟨39, last_lt⟩)).set
      rw [View.set_slice_whole, Rect.mem_set_unit]
      intro a
      have h0 : (i 0 : Nat) < 1 := (i 0).isLt
      have h1 : (i 1 : Nat) < 1 := (i 1).isLt
      match a with
      | ⟨0, _⟩ => show win0_2.index ⟨39, last_lt⟩ 0 * win0_2.size 0 ≤ (i 0 : Nat) ∧ (i 0 : Nat) < win0_2.index ⟨39, last_lt⟩ 0 * win0_2.size 0 + win0_2.xsize (grid0.coords ⟨39, last_lt⟩) 0
                  rw [show win0_2.index ⟨39, last_lt⟩ 0 * win0_2.size 0 = 0 from by decide +kernel, show win0_2.xsize (grid0.coords ⟨39, last_lt⟩) 0 = 1 from by decide +kernel]; omega
      | ⟨1, _⟩ => show win0_2.index ⟨39, last_lt⟩ 1 * win0_2.size 1 ≤ (i 1 : Nat) ∧ (i 1 : Nat) < win0_2.index ⟨39, last_lt⟩ 1 * win0_2.size 1 + win0_2.xsize (grid0.coords ⟨39, last_lt⟩) 1
                  rw [show win0_2.index ⟨39, last_lt⟩ 1 * win0_2.size 1 = 0 from by decide +kernel, show win0_2.xsize (grid0.coords ⟨39, last_lt⟩) 1 = 1 from by decide +kernel]; omega⟩

/-- The host lines after the call: the scalar reshaped to rank zero and divided by the element count. -/
theorem tail_eq (c : Dev nD) :
    Pipeline.afterTail₀ cfgs (dats m) 0 (V0 m) [hostOps1] c main_v2 = mean (outArr m c) (convArr m c) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v0)
      = accArr m c := (Pipeline.withArrays_arr spec0 launch0.win.arr_inj c _ _ 2).trans (final_acc m c)
  rw [hA]
  funext i
  show Ideal.div (partialSum m c 39 last_lt) _ = Ideal.div (total (outArr m c) (convArr m c)) _
  rw [partialSum_last]
  rfl

/-- THE RUN, READ: every weakly fair execution of the program ends with its result at the mean absolute difference of the
    two arguments over channels `0:3`, and the arguments unchanged. -/
theorem run : θ_run defs (onTc (τ := τ) (main (F := Ideal))) ⟨m, fun _ => 0, ρ⟩ fun r => ∀ c : Dev nD,
      r.2.mem ((c : Thread nD τ).loc main_v2) = mean (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The certificate of a mean-absolute-difference kernel against its jnp reference.

  Both programs compute `(∑ |conv − out|) / 39321600`, the sum over channels `0:3` of two [128,100,6,32,32] arrays.
  The reference slices the channels, subtracts, takes absolute values and reduces over all five axes at once. The kernel
  walks an 8 × 5 grid of [16,20,3,32,32] blocks, sums each block (lanes, then rows) and accumulates the block sums in a
  scratch scalar that the last point stores to the output; the host divides it by the count. At the exact instance
  every sum is a finite sum of extended reals, whose addition is commutative and associative at the infinities too, so the
  two sides are one sum regrouped (Proof/Regroup.lean) and the precondition is never opened. The divisor is the same
  literal on both sides and is not evaluated.

  Modules: Regroup (the regrouping, and the common value `mean`), RefValue (the reference's run is `mean`), KernelPieces
  (what the body leaves per case), KernelBlock (the body's arithmetic is "add the block's sum"), KernelValue (the running
  scalar by induction over the grid, the output array, the host lines after the call). The three frames are the generated
  ones; the idealized kernel is the kernel's own text read at the exact instance, so `preserves` has nothing to state.
-/
import proofs.«162782_j33758442946605_1_alg».proof.Defs
import proofs.«162782_j33758442946605_1_alg».proof.Proof.Gen.Kernel
import proofs.«162782_j33758442946605_1_alg».proof.Proof.Gen.Kernel.Skeleton
import proofs.«162782_j33758442946605_1_alg».proof.Proof.Gen.Kernel.Launch
import proofs.«162782_j33758442946605_1_alg».proof.Proof.Gen.Kernel.Points
import proofs.«162782_j33758442946605_1_alg».proof.Proof.Gen.Kernel.Frame
import proofs.«162782_j33758442946605_1_alg».proof.Proof.Gen.KernelIdeal
import proofs.«162782_j33758442946605_1_alg».proof.Proof.Gen.KernelIdeal.Skeleton
import proofs.«162782_j33758442946605_1_alg».proof.Proof.Gen.KernelIdeal.Launch
import proofs.«162782_j33758442946605_1_alg».proof.Proof.Gen.KernelIdeal.Points
import proofs.«162782_j33758442946605_1_alg».proof.Proof.Gen.KernelIdeal.Frame
import proofs.«162782_j33758442946605_1_alg».proof.Proof.Gen.ReferenceIdeal
import proofs.«162782_j33758442946605_1_alg».proof.Proof.Gen.Pre_finite_inputs
import proofs.«162782_j33758442946605_1_alg».proof.Proof.Gen.ReferenceIdeal.Run
import proofs.«162782_j33758442946605_1_alg».proof.Proof.Gen.ReferenceIdeal.Read
import proofs.«162782_j33758442946605_1_alg».proof.Proof.RefValue
import proofs.«162782_j33758442946605_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the mean absolute difference of the (agreeing) arguments over channels `0:3`. -/
theorem algebraic : Cert.algebraic_KernelIdeal_ReferenceIdeal := by
  intro m ρ m' ρ' _ hagree
  refine ⟨fun c => Cert.AbsDiffMean.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v5_eq]
  exact Cert.ReferenceIdeal.RefValue.ref_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
